-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_arg4)) (v2 : (c : Dev Cert.KernelIdeal.nD) → Buf (Elt Ideal) ((c.tc : Thread Cert.KernelIdeal.nD Cert.KernelIdeal.τ).loc Cert.KernelIdeal.main_arg5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg4) = v1 c
          ∧ r.2.mem ((c.tc : Thread Cert.KernelIdeal.nD Cert.KernelIdeal.τ).loc Cert.KernelIdeal.main_arg5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg4) = v1 c
          ∧ r.2.mem ((c.tc : Thread Cert.ReferenceIdeal.nD Cert.ReferenceIdeal.τ).loc Cert.ReferenceIdeal.main_arg5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x512 : Shape := ⟨3, ![4, 512, 512]⟩
abbrev S4x128x512 : Shape := ⟨3, ![4, 128, 512]⟩
abbrev S512x512 : Shape := ⟨2, ![512, 512]⟩
abbrev S512 : Shape := ⟨1, ![512]⟩
abbrev S4 : Shape := ⟨1, ![4]⟩
abbrev S_ : Shape := ⟨0, ![]⟩

class Facts : Prop where
  bcast_S_S4x512x512 : S_.BroadcastsInDim S4x512x512 (![] : Fin 0 → Fin S4x512x512.rank)
  reducesTo_S4x512x512_S_d0_1_2 : S4x512x512.ReducesTo [0, 1, 2] S_
  h_S_ : 0 < S_.numel
  bcast_S_S4x128x512 : S_.BroadcastsInDim S4x128x512 (![] : Fin 0 → Fin S4x128x512.rank)
  reducesTo_S4x128x512_S_d0_1_2 : S4x128x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S4x512x512 .f32) (main_arg1 : FVec F S4x128x512 .f32) (main_arg2 : FVec F S512x512 .f32) (main_arg3 : FVec F S512 .f32) (main_arg4 : IVec S4 32) (main_arg5 : IVec S4 32) : IVec S_ 1 :=
  let main_v0 : FVec F S4x512x512 .f32 := Host.absf main_arg0
  let main_cst : FVec F S_ .f32 := constant S_ .f32 0x7F800000#32
  let main_v1 : FVec F S4x512x512 .f32 := broadcastInDim S4x512x512 ![] bcast_S_S4x512x512 main_cst
  let main_v2 : IVec S4x512x512 1 := cmpf .olt main_v0 main_v1
  let main_c : IVec S_ 1 := constantI S_ 1 1#1
  let main_v3 : IVec S_ 1 := (fun x v => Host.reduce IntOp.andi x v reducesTo_S4x512x512_S_d0_1_2 h_S_) main_v2 main_c
  let main_v4 : FVec F S4x128x512 .f32 := Host.absf main_arg1
  let main_cst_0 : FVec F S_ .f32 := constant S_ .f32 0x7F800000#32
  let main_v5 : FVec F S4x128x512 .f32 := broadcastInDim S4x128x512 ![] bcast_S_S4x128x512 main_cst_0
  let main_v6 : IVec S4x128x512 1 := cmpf .olt main_v4 main_v5
  let main_c_1 : IVec S_ 1 := constantI S_ 1 1#1
  let main_v7 : IVec S_ 1 := (fun x v => Host.reduce IntOp.andi x v reducesTo_S4x128x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S4x512x512 : Shape := ⟨3, ![4, 512, 512]⟩
abbrev S4x128x512 : Shape := ⟨3, ![4, 128, 512]⟩
abbrev S512x512 : Shape := ⟨2, ![512, 512]⟩
abbrev S512 : Shape := ⟨1, ![512]⟩
abbrev S4 : Shape := ⟨1, ![4]⟩
abbrev S1x512 : Shape := ⟨2, ![1, 512]⟩
abbrev S4x512x128x512 : Shape := ⟨4, ![4, 512, 128, 512]⟩
abbrev S1x64x512 : Shape := ⟨3, ![1, 64, 512]⟩
abbrev S1x128x512 : Shape := ⟨3, ![1, 128, 512]⟩
abbrev S1x64x128x512 : Shape := ⟨4, ![1, 64, 128, 512]⟩
abbrev S128x512 : Shape := ⟨2, ![128, 512]⟩
abbrev S64x512 : Shape := ⟨2, ![64, 512]⟩
abbrev S64x1x512 : Shape := ⟨3, ![64, 1, 512]⟩
abbrev S64x128x512 : Shape := ⟨3, ![64, 128, 512]⟩

abbrev nBuf : Space → Nat
  | .hbm => 8
  | .vmem => 9
  | .smem => 0
  | _ => 0

abbrev bufTy : (tb : Table) → Fin (tcTables nBuf tb) → BufTy
  | .hbm, ⟨0, _⟩ => ⟨S4x512x512, .f32⟩
  | .hbm, ⟨1, _⟩ => ⟨S4x128x512, .f32⟩
  | .hbm, ⟨2, _⟩ => ⟨S512x512, .f32⟩
  | .hbm, ⟨3, _⟩ => ⟨S512, .f32⟩
  | .hbm, ⟨4, _⟩ => ⟨S4, .i32⟩
  | .hbm, ⟨5, _⟩ => ⟨S4, .i32⟩
  | .hbm, ⟨6, _⟩ => ⟨S1x512, .f32⟩
  | .hbm, ⟨7, _⟩ => ⟨S4x512x128x512, .f32⟩
  | .local _ .vmem, ⟨0, _⟩ => ⟨S1x64x512, .f32⟩
  | .local _ .vmem, ⟨1, _⟩ => ⟨S1x64x512, .f32⟩
  | .local _ .vmem, ⟨2, _⟩ => ⟨S1x128x512, .f32⟩
  | .local _ .vmem, ⟨3, _⟩ => ⟨S1x128x512, .f32⟩
  | .local _ .vmem, ⟨4, _⟩ => ⟨S512x512, .f32⟩
  | .local _ .vmem, ⟨5, _⟩ => ⟨S1x512, .f32⟩
  | .local _ .vmem, ⟨6, _⟩ => ⟨S1x64x128x512, .f32⟩
  | .local _ .vmem, ⟨7, _⟩ => ⟨S1x64x128x512, .f32⟩
  | .local _ .vmem, ⟨8, _⟩ => ⟨S128x512, .f32⟩
  | _, _ => ⟨S4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S512_S1x512 : S512.ShapeCasts S1x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S64x1x512 : S64x512.ShapeCasts S64x1x512
  shapeCasts_S128x512_S1x128x512 : S128x512.ShapeCasts S1x128x512
  broadcasts_S64x1x512_S64x128x512 : S64x1x512.Broadcasts S64x128x512
  broadcasts_S1x128x512_S64x128x512 : S1x128x512.Broadcasts S64x128x512
  shapeCasts_S64x128x512_S1x64x128x512 : S64x128x512.ShapeCasts S1x64x128x512
  inb_S1x64x128x512_S1x64x128x512_0_0_0_0 : ∀ a, (![0, 0, 0, 0] : Fin 4 → Nat) a + S1x64x128x512.size a ≤ S1x64x128x512.size a
  h_S1x64x128x512 : 0 < S1x64x128x512.numel
  dot_S128x512_S512x512_S128x512_1_1_0_0_n_n_wf : DotDims.WF S128x512 S512x512 S128x512 [1] [1] [0] [0] [] []
  dot_S64x512_S512x512_S64x512_1_1_0_0_n_n_wf : DotDims.WF S64x512 S512x512 S64x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x512.size a ≤ S4x512x512.size a
  hwx0_0 : ∀ i : grid0.Coords, EltTy.bits .f32 = 32 ∨ (Rect.block (s := S4x512x512) S1x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S4x128x512.size a
  hwx0_1 : ∀ i : grid0.Coords, EltTy.bits .f32 = 32 ∨ (Rect.block (s := S4x128x512) S1x128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x128x512.size a ≤ S4x512x128x512.size a
  hwx0_4 : ∀ i : grid0.Coords, EltTy.bits .f32 = 32 ∨ (Rect.block (s := S4x512x128x512) S1x64x128x512.size (cc0_transform_4 i) (hinb0_4 i)).WholeWords (EltTy.packing .f32)

variable [Facts₀]

def dot_S128x512_S512x512_S128x512_1_1_0_0_n_n : DotDims S128x512 S512x512 S128x512 where
  lhsContracting := [1]
  rhsContracting := [1]
  lhsNonContracting := [0]
  rhsNonContracting := [0]
  lhsBatch := []
  rhsBatch := []
  wf := dot_S128x512_S512x512_S128x512_1_1_0_0_n_n_wf
def dot_S64x512_S512x512_S64x512_1_1_0_0_n_n : DotDims S64x512 S512x512 S64x512 where
  lhsContracting := [1]
  rhsContracting := [1]
  lhsNonContracting := [0]
  rhsNonContracting := [0]
  lhsBatch := []
  rhsBatch := []
  wf := dot_S64x512_S512x512_S64x512_1_1_0_0_n_n_wf

abbrev win0_0 : Pipeline.Window sig grid0 :=
  Pipeline.Window.ofSpec (Memref.whole main_arg0) S1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64x128x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x512x512 : Shape := ⟨3, ![4, 512, 512]⟩
abbrev S4x128x512 : Shape := ⟨3, ![4, 128, 512]⟩
abbrev S512x512 : Shape := ⟨2, ![512, 512]⟩
abbrev S512 : Shape := ⟨1, ![512]⟩
abbrev S4 : Shape := ⟨1, ![4]⟩
abbrev S4x512x1x512 : Shape := ⟨4, ![4, 512, 1, 512]⟩
abbrev S4x1x128x512 : Shape := ⟨4, ![4, 1, 128, 512]⟩
abbrev S4x512x128x512 : Shape := ⟨4, ![4, 512, 128, 512]⟩
abbrev S1x1x1x512 : Shape := ⟨4, ![1, 1, 1, 512]⟩

abbrev nBuf : Space → Nat
  | .hbm => 15
  | .vmem => 0
  | .smem => 0
  | _ => 0

abbrev bufTy : (tb : Table) → Fin (tcTables nBuf tb) → BufTy
  | .hbm, ⟨0, _⟩ => ⟨S4x512x512, .f32⟩
  | .hbm, ⟨1, _⟩ => ⟨S4x128x512, .f32⟩
  | .hbm, ⟨2, _⟩ => ⟨S512x512, .f32⟩
  | .hbm, ⟨3, _⟩ => ⟨S512, .f32⟩
  | .hbm, ⟨4, _⟩ => ⟨S4, .i32⟩
  | .hbm, ⟨5, _⟩ => ⟨S4, .i32⟩
  | .hbm, ⟨6, _⟩ => ⟨S4x512x1x512, .f32⟩
  | .hbm, ⟨7, _⟩ => ⟨S4x1x128x512, .f32⟩
  | .hbm, ⟨8, _⟩ => ⟨S4x512x128x512, .f32⟩
  | .hbm, ⟨9, _⟩ => ⟨S4x512x128x512, .f32⟩
  | .hbm, ⟨10, _⟩ => ⟨S4x512x128x512, .f32⟩
  | .hbm, ⟨11, _⟩ => ⟨S4x512x128x512, .f32⟩
  | .hbm, ⟨12, _⟩ => ⟨S1x1x1x512, .f32⟩
  | .hbm, ⟨13, _⟩ => ⟨S4x512x128x512, .f32⟩
  | .hbm, ⟨14, _⟩ => ⟨S4x512x128x512, .f32⟩
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4x512x512_S4x512x1x512_0_1_3 : S4x512x512.BroadcastsInDim S4x512x1x512 (![0, 1, 3] : Fin 3 → Fin S4x512x1x512.rank)
  bcast_S4x128x512_S4x1x128x512_0_2_3 : S4x128x512.BroadcastsInDim S4x1x128x512 (![0, 2, 3] : Fin 3 → Fin S4x1x128x512.rank)
  bcast_S4x512x1x512_S4x512x128x512_0_1_2_3 : S4x512x1x512.BroadcastsInDim S4x512x128x512 (![0, 1, 2, 3] : Fin 4 → Fin S4x512x128x512.rank)
  bcast_S4x1x128x512_S4x512x128x512_0_1_2_3 : S4x1x128x512.BroadcastsInDim S4x512x128x512 (![0, 1, 2, 3] : Fin 4 → Fin S4x512x128x512.rank)
  bcast_S512_S1x1x1x512_3 : S512.BroadcastsInDim S1x1x1x512 (![3] : Fin 1 → Fin S1x1x1x512.rank)
  bcast_S1x1x1x512_S4x512x128x512_0_1_2_3 : S1x1x1x512.BroadcastsInDim S4x512x128x512 (![0, 1, 2, 3] : Fin 4 → Fin S4x512x128x512.rank)
  dot_S4x512x128x512_S512x512_S4x512x128x512_3_1_012_0_n_n_wf : DotDims.WF S4x512x128x512 S512x512 S4x512x128x512 [3] [1] [0, 1, 2] [0] [] []

variable [Facts₀]

def dot_S4x512x128x512_S512x512_S4x512x128x512_3_1_012_0_n_n : DotDims S4x512x128x512 S512x512 S4x512x128x512 where
  lhsContracting := [3]
  rhsContracting := [1]
  lhsNonContracting := [0, 1, 2]
  rhsNonContracting := [0]
  lhsBatch := []
  rhsBatch := []
  wf := dot_S4x512x128x512_S512x512_S4x512x128x512_3_1_012_0_n_n_wf

class Facts : Prop extends Facts₀ where

variable [Facts]
-- ==== Proof.Pieces.lean ====
/-
  What one run of the body leaves behind, as values of what it loaded.

  The body has two cases. At the first step of a batch row it first stores the predictor's projection with the bias
  (`k0_pay1` of the predictor block, the projection and the bias row) into the scratch, and at every step it stores the
  logits tile (`k0_pay2` of the encoder block, the projection and WHATEVER THE SCRATCH HOLDS) into the output block. So:
    first step of a row:  scratch := pay1 x₁ x₂ x₃,   output := pay2 x₀ x₂ (pay1 x₁ x₂ x₃)   (the scratch read back
                                                                                             after its own store)
    any later step:       scratch unchanged,           output := pay2 x₀ x₂ (scratch)
  Each statement holds at any float instance: nothing is computed, one covering store's payload is read back through the
  whole buffer, and each load of a whole buffer is the buffer's contents.
-/
import proofs.«416744_j41970420417852_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.JointValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- First step of a batch row: the scratch ends at the predictor's projection with the bias. -/
theorem scratch_first (c : Dev nD) (i : grid0.Coords) (arg2 : Memref sig .tc .vmem S1x64x512 .f32) (harg2 : arg2.IsWhole) (arg3 : Memref sig .tc .vmem S1x128x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x64x128x512 .f32) (harg6 : arg6.IsWhole) (arg7 : Memref sig .tc .vmem S128x512 .f32) (harg7 : arg7.IsWhole) (hc0 : cond0_0 i)
    (x0 : Vec F S1x64x512 .f32) (x1 : Vec F S1x128x512 .f32) (x2 : Vec F S512x512 .f32) (x3 : Vec F S1x512 .f32) :
    sout0_A_0 c i arg2 harg2 arg3 harg3 arg4 harg4 arg5 harg5 arg6 harg6 arg7 harg7 hc0 x0 x1 x2 x3 = k0_pay1 x1 x2 x3 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero hz2]
  simp only [View.readAt_eq_ld, harg3.read_unread, harg4.read_unread, harg5.read_unread,
    View.ld_unit_zero (S := S1x128x512) hz3, View.ld_unit_zero (S := S512x512) hz2, View.ld_unit_zero (S := S1x512) hz2]

/-- First step of a batch row: the output block ends at the logits tile over the scratch the same run has just
    stored. -/
theorem out_first (c : Dev nD) (i : grid0.Coords) (arg2 : Memref sig .tc .vmem S1x64x512 .f32) (harg2 : arg2.IsWhole) (arg3 : Memref sig .tc .vmem S1x128x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x64x128x512 .f32) (harg6 : arg6.IsWhole) (arg7 : Memref sig .tc .vmem S128x512 .f32) (harg7 : arg7.IsWhole) (hc0 : cond0_0 i)
    (x0 : Vec F S1x64x512 .f32) (x1 : Vec F S1x128x512 .f32) (x2 : Vec F S512x512 .f32) (x3 : Vec F S1x512 .f32) :
    out0_A_4 c i arg2 harg2 arg3 harg3 arg4 harg4 arg5 harg5 arg6 harg6 arg7 harg7 hc0 x0 x1 x2 x3 = k0_pay2 x0 x2 (k0_pay1 x1 x2 x3) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero hz4]
  simp only [View.readAt_eq_ld, harg2.read_unread, harg3.read_unread, harg4.read_unread, harg5.read_unread,
    View.readCov_unit_zero (S := S128x512) _ hz2,
    View.ld_unit_zero (S := S1x64x512) hz3, View.ld_unit_zero (S := S1x128x512) hz3,
    View.ld_unit_zero (S := S512x512) hz2, View.ld_unit_zero (S := S1x512) hz2]

/-- Any later step: the output block ends at the logits tile over what the scratch held when the step began. -/
theorem out_later (c : Dev nD) (i : grid0.Coords) (arg2 : Memref sig .tc .vmem S1x64x512 .f32) (harg2 : arg2.IsWhole) (arg3 : Memref sig .tc .vmem S1x128x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x64x128x512 .f32) (harg6 : arg6.IsWhole) (arg7 : Memref sig .tc .vmem S128x512 .f32) (harg7 : arg7.IsWhole) (hc0 : ¬cond0_0 i)
    (x0 : Vec F S1x64x512 .f32) (x1 : Vec F S1x128x512 .f32) (x2 : Vec F S512x512 .f32) (x3 : Vec F S1x512 .f32)
    (xs0 : Vec F S128x512 .f32) :
    out0_B_4 c i arg2 harg2 arg3 harg3 arg4 harg4 arg5 harg5 arg6 harg6 arg7 harg7 hc0 x0 x1 x2 x3 xs0 = k0_pay2 x0 x2 xs0 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  sl_unfold_words
  rw [View.canon_unit_zero hz4]
  simp only [View.readAt_eq_ld, harg2.read_unread, harg4.read_unread, harg7.read_unread,
    View.ld_unit_zero (S := S1x64x512) hz3, View.ld_unit_zero (S := S512x512) hz2, View.ld_unit_zero (S := S128x512) hz2]

end Cert.KernelIdeal.JointValue

end
-- ==== Proof.LibUnitAxes.lean ====
/-
  Layout operations that add or fill a UNIT axis, read at an index written by coordinates: a rank-2 array given a unit
  middle axis, `[a, b] → [a, 1, b]`, and the two rank-3 broadcasts that fill a unit axis, `[a, 1, b] → [a, c, b]` (the
  middle one) and `[1, c, b] → [a, c, b]` (the leading one). Together they are an outer sum's two halves: a `[a, b]`
  array and a `[c, b]` array each spread over the other's leading axis before they are added. Program-independent: the
  statements are over literal-free shapes `⟨n, ![…]⟩` and any element type.
-/
import Idealize.ShloMosaic.Lib.Pipeline.Value
import Idealize.ShloMosaic.Lib.ValueIdx

noncomputable section

namespace Cert.Lib

open Idealize.ShloMosaic Idealize.ShloMosaic.ValueIdx

variable {α : Type}

/-- An `[a, b]` array cast to `[a, 1, b]` reads, at `(i, u, j)`, the operand at `(i, j)`: the unit axis does not move
    the row-major position. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array broadcast to `[a, c, b]` reads, at `(i, k, j)`, the operand at `(i, 0, j)`: every index of the
    filled middle axis sees the one entry. -/
theorem broadcastTo_a1b_acb_apply {a b c : ℕ} (x : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ x h (ix3 i k j) = x (ix3 i (0 : Fin 1) j) := by
  refine broadcastTo_apply x h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A `[1, c, b]` array broadcast to `[a, c, b]` reads, at `(i, k, j)`, the operand at `(0, k, j)`: every index of the
    filled leading axis sees the one slab. -/
theorem broadcastTo_1cb_acb_apply {a b c : ℕ} (x : (⟨3, ![1, c, b]⟩ : Shape).Idx → α)
    (h : (⟨3, ![1, c, b]⟩ : Shape).Broadcasts ⟨3, ![a, c, b]⟩) (i : Fin a) (k : Fin c) (j : Fin b) :
    broadcastTo ⟨3, ![a, c, b]⟩ x h (ix3 i k j) = x (ix3 (0 : Fin 1) k j) := by
  refine broadcastTo_apply x h (ix3 i k j) (ix3 (0 : Fin 1) k j) fun ax => ?_
  match ax with
  | ⟨0, _⟩ => rfl
  | ⟨1, _⟩ =>
    show k.val = if c = 1 then 0 else k.val
    split
    · have := k.isLt; omega
    · rfl
  | ⟨2, _⟩ =>
    show j.val = if b = 1 then 0 else j.val
    split
    · have := j.isLt; omega
    · rfl

end Cert.Lib

end
-- ==== Proof.PayloadValue.lean ====
/-
  The body's two payloads read at one entry, over the extended reals.

  `k0_pay1` (the predictor's projection with the bias): the predictor block `[1, 128, 512]` loses its unit axis, is
  multiplied row against row with the projection `[512, 512]` into a zero accumulator, and the bias row `[1, 512]` is
  spread over the 128 rows and added. At `(u, v)`:   (∑ d, x₁[0, u, d] · x₂[v, d]) + x₃[0, v].
  `k0_pay2` (a logits tile): the encoder block `[1, 64, 512]` loses its unit axis and is multiplied the same way; the
  `[64, 512]` product gets a unit middle axis and is spread over the 128 predictor steps; the scratch `[128, 512]` gets a
  unit leading axis and is spread over the 64 encoder steps; the two are added and a unit batch axis is put in front.
  At `(0, r, u, v)`:   (∑ d, x₀[0, r, d] · x₂[v, d]) + scratch[u, v].
  Both matrix products contract the LAST axis of both operands, so the right operand is read by rows: no transpose.
-/
import proofs.«416744_j41970420417852_3_alg».proof.Proof.Gen.KernelIdeal.Skeleton
import proofs.«416744_j41970420417852_3_alg».proof.Proof.LibUnitAxes
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.JointValue

open Cert.KernelIdeal Cert.KernelIdeal.Gen

/-! ## The two matrix products as plain sums -/

theorem lhs_pred_0 (i : S128x512.Idx) (q : dot_S128x512_S512x512_S128x512_1_1_0_0_n_n.contr.Idx) :
    (dot_S128x512_S512x512_S128x512_1_1_0_0_n_n.lhsIdx i q 0).val = (i 0).val := by
  unfold DotDims.lhsIdx
  rw [dif_neg (show ¬(0 : Fin S128x512.rank) ∈ dot_S128x512_S512x512_S128x512_1_1_0_0_n_n.lhsBatch by decide), dif_pos (show (0 : Fin S128x512.rank) ∈ dot_S128x512_S512x512_S128x512_1_1_0_0_n_n.lhsNonContracting by decide)]
  rfl
theorem lhs_pred_1 (i : S128x512.Idx) (q : dot_S128x512_S512x512_S128x512_1_1_0_0_n_n.contr.Idx) :
    (dot_S128x512_S512x512_S128x512_1_1_0_0_n_n.lhsIdx i q 1).val = (q ⟨0, by decide⟩).val :=
  dot_S128x512_S512x512_S128x512_1_1_0_0_n_n.lhsIdx_val_of_single rfl i q
theorem rhs_pred_0 (i : S128x512.Idx) (q : dot_S128x512_S512x512_S128x512_1_1_0_0_n_n.contr.Idx) :
    (dot_S128x512_S512x512_S128x512_1_1_0_0_n_n.rhsIdx i q 0).val = (i 1).val := by
  unfold DotDims.rhsIdx
  rw [dif_neg (show ¬(0 : Fin S512x512.rank) ∈ dot_S128x512_S512x512_S128x512_1_1_0_0_n_n.rhsBatch by decide), dif_pos (show (0 : Fin S512x512.rank) ∈ dot_S128x512_S512x512_S128x512_1_1_0_0_n_n.rhsNonContracting by decide)]
  rfl
theorem rhs_pred_1 (i : S128x512.Idx) (q : dot_S128x512_S512x512_S128x512_1_1_0_0_n_n.contr.Idx) :
    (dot_S128x512_S512x512_S128x512_1_1_0_0_n_n.rhsIdx i q 1).val = (q ⟨0, by decide⟩).val :=
  dot_S128x512_S512x512_S128x512_1_1_0_0_n_n.rhsIdx_val_of_single rfl i q

/-- Rows of `l` against rows of `r`, into the zero accumulator: entry `(p, v)` is `∑ d, l[p, d] · r[v, d]`. -/
theorem matmul_pred_apply (l : FVec Ideal S128x512 .f32) (r : FVec Ideal S512x512 .f32) (p : Fin 128) (v : Fin 512) :
    matmul (F := Ideal) dot_S128x512_S512x512_S128x512_1_1_0_0_n_n none l r (constant (F := Ideal) S128x512 .f32 0x00000000#32) (ix2 p v)
      = ∑ d : Fin 512, l (ix2 p d) * r (ix2 v d) := by
  simp only [matmul]
  rw [Ideal.matmul_constant_zero_apply, ← Equiv.sum_comp (contrEquiv1 dot_S128x512_S512x512_S128x512_1_1_0_0_n_n 512 rfl rfl).symm]
  refine Finset.sum_congr rfl fun k _ => ?_
  have hk := contrEquiv1_symm_val dot_S128x512_S512x512_S128x512_1_1_0_0_n_n 512 rfl rfl k
  have el : dot_S128x512_S512x512_S128x512_1_1_0_0_n_n.lhsIdx (ix2 p v) ((contrEquiv1 dot_S128x512_S512x512_S128x512_1_1_0_0_n_n 512 rfl rfl).symm k) = ix2 p k := funext fun a => Fin.ext (by
    match a with
    | ⟨0, _⟩ => exact lhs_pred_0 _ _
    | ⟨1, _⟩ => exact (lhs_pred_1 _ _).trans hk)
  have er : dot_S128x512_S512x512_S128x512_1_1_0_0_n_n.rhsIdx (ix2 p v) ((contrEquiv1 dot_S128x512_S512x512_S128x512_1_1_0_0_n_n 512 rfl rfl).symm k) = ix2 v k := funext fun a => Fin.ext (by
    match a with
    | ⟨0, _⟩ => exact rhs_pred_0 _ _
    | ⟨1, _⟩ => exact (rhs_pred_1 _ _).trans hk)
  rw [el, er]

theorem lhs_enc_0 (i : S64x512.Idx) (q : dot_S64x512_S512x512_S64x512_1_1_0_0_n_n.contr.Idx) :
    (dot_S64x512_S512x512_S64x512_1_1_0_0_n_n.lhsIdx i q 0).val = (i 0).val := by
  unfold DotDims.lhsIdx
  rw [dif_neg (show ¬(0 : Fin S64x512.rank) ∈ dot_S64x512_S512x512_S64x512_1_1_0_0_n_n.lhsBatch by decide), dif_pos (show (0 : Fin S64x512.rank) ∈ dot_S64x512_S512x512_S64x512_1_1_0_0_n_n.lhsNonContracting by decide)]
  rfl
theorem lhs_enc_1 (i : S64x512.Idx) (q : dot_S64x512_S512x512_S64x512_1_1_0_0_n_n.contr.Idx) :
    (dot_S64x512_S512x512_S64x512_1_1_0_0_n_n.lhsIdx i q 1).val = (q ⟨0, by decide⟩).val :=
  dot_S64x512_S512x512_S64x512_1_1_0_0_n_n.lhsIdx_val_of_single rfl i q
theorem rhs_enc_0 (i : S64x512.Idx) (q : dot_S64x512_S512x512_S64x512_1_1_0_0_n_n.contr.Idx) :
    (dot_S64x512_S512x512_S64x512_1_1_0_0_n_n.rhsIdx i q 0).val = (i 1).val := by
  unfold DotDims.rhsIdx
  rw [dif_neg (show ¬(0 : Fin S512x512.rank) ∈ dot_S64x512_S512x512_S64x512_1_1_0_0_n_n.rhsBatch by decide), dif_pos (show (0 : Fin S512x512.rank) ∈ dot_S64x512_S512x512_S64x512_1_1_0_0_n_n.rhsNonContracting by decide)]
  rfl
theorem rhs_enc_1 (i : S64x512.Idx) (q : dot_S64x512_S512x512_S64x512_1_1_0_0_n_n.contr.Idx) :
    (dot_S64x512_S512x512_S64x512_1_1_0_0_n_n.rhsIdx i q 1).val = (q ⟨0, by decide⟩).val :=
  dot_S64x512_S512x512_S64x512_1_1_0_0_n_n.rhsIdx_val_of_single rfl i q

/-- Rows of `l` against rows of `r`, into the zero accumulator: entry `(p, v)` is `∑ d, l[p, d] · r[v, d]`. -/
theorem matmul_enc_apply (l : FVec Ideal S64x512 .f32) (r : FVec Ideal S512x512 .f32) (p : Fin 64) (v : Fin 512) :
    matmul (F := Ideal) dot_S64x512_S512x512_S64x512_1_1_0_0_n_n none l r (constant (F := Ideal) S64x512 .f32 0x00000000#32) (ix2 p v)
      = ∑ d : Fin 512, l (ix2 p d) * r (ix2 v d) := by
  simp only [matmul]
  rw [Ideal.matmul_constant_zero_apply, ← Equiv.sum_comp (contrEquiv1 dot_S64x512_S512x512_S64x512_1_1_0_0_n_n 512 rfl rfl).symm]
  refine Finset.sum_congr rfl fun k _ => ?_
  have hk := contrEquiv1_symm_val dot_S64x512_S512x512_S64x512_1_1_0_0_n_n 512 rfl rfl k
  have el : dot_S64x512_S512x512_S64x512_1_1_0_0_n_n.lhsIdx (ix2 p v) ((contrEquiv1 dot_S64x512_S512x512_S64x512_1_1_0_0_n_n 512 rfl rfl).symm k) = ix2 p k := funext fun a => Fin.ext (by
    match a with
    | ⟨0, _⟩ => exact lhs_enc_0 _ _
    | ⟨1, _⟩ => exact (lhs_enc_1 _ _).trans hk)
  have er : dot_S64x512_S512x512_S64x512_1_1_0_0_n_n.rhsIdx (ix2 p v) ((contrEquiv1 dot_S64x512_S512x512_S64x512_1_1_0_0_n_n 512 rfl rfl).symm k) = ix2 v k := funext fun a => Fin.ext (by
    match a with
    | ⟨0, _⟩ => exact rhs_enc_0 _ _
    | ⟨1, _⟩ => exact (rhs_enc_1 _ _).trans hk)
  rw [el, er]

/-! ## The payloads at an entry -/

/-- The predictor's projection with the bias, at row `u` and column `v`. -/
theorem pay1_apply (x1 : Vec Ideal S1x128x512 .f32) (x2 : Vec Ideal S512x512 .f32) (x3 : Vec Ideal S1x512 .f32)
    (u : Fin 128) (v : Fin 512) :
    k0_pay1 (F := Ideal) x1 x2 x3 (ix2 u v)
      = (∑ d : Fin 512, x1 (ix3 (0 : Fin 1) u d) * x2 (ix2 v d)) + x3 (ix2 (0 : Fin 1) v) := by
  unfold k0_pay1
  simp only [shapeCast_self]
  rw [addf_apply, matmul_pred_apply, broadcastTo_1b_ab_apply]
  congr 1
  refine Finset.sum_congr rfl fun d _ => ?_
  rw [shapeCast_1ab_ab_apply]

/-- A logits tile at encoder step `r`, predictor step `u` and column `v`, over whatever the scratch holds. -/
theorem pay2_apply (x0 : Vec Ideal S1x64x512 .f32) (x2 : Vec Ideal S512x512 .f32) (xs : Vec Ideal S128x512 .f32)
    (e : Fin 1) (r : Fin 64) (u : Fin 128) (v : Fin 512) :
    k0_pay2 (F := Ideal) x0 x2 xs (ix4 e r u v)
      = (∑ d : Fin 512, x0 (ix3 (0 : Fin 1) r d) * x2 (ix2 v d)) + xs (ix2 u v) := by
  unfold k0_pay2
  rw [shapeCast_abc_1abc_apply, addf_apply, Cert.Lib.broadcastTo_a1b_acb_apply, Cert.Lib.shapeCast_ab_a1b_apply,
    matmul_enc_apply, Cert.Lib.broadcastTo_1cb_acb_apply, shapeCast_ab_1ab_apply]
  congr 1
  refine Finset.sum_congr rfl fun d _ => ?_
  rw [shapeCast_1ab_ab_apply]

end Cert.KernelIdeal.JointValue

end
-- ==== Proof.JointLaw.lean ====
/-
  The joint network's logits as a function of its four float arrays, in the two arrangements the two programs
  compute, and the law that makes the two arrangements one function.

  With encoder frames `s[b, t, d]`, predictor frames `x[b, u, d]`, a projection `w[v, d]` and a bias `β[v]`:
    fused:  logits[b, t, u, v] = (∑ d, (s[b, t, d] + x[b, u, d]) · w[v, d]) + β[v]
    split:  logits[b, t, u, v] = (∑ d, s[b, t, d] · w[v, d]) + ((∑ d, x[b, u, d] · w[v, d]) + β[v])
  The split form projects each side alone: the predictor's projection with the bias depends on `(b, u, v)` only and
  the encoder's on `(b, t, v)` only. The two agree term by term by distributing the product over the inner sum, then
  splitting the sum of sums and reassociating. On the extended reals `(a + b) · c = a · c + b · c` fails at the
  infinities (`(⊤ + ⊥) · c`), so the law is stated for arrays whose entries are real numbers; the splitting of the sum
  and the reassociation hold on all extended reals, and the bias may be anything.
-/
import Idealize.ShloMosaic.PureOps.Ideal
import Idealize.ShloMosaic.Lib.ValueIdx

noncomputable section

open scoped BigOperators

namespace Cert.Joint

open Idealize.ShloMosaic Idealize.ShloMosaic.ValueIdx

/-- Encoder frames `[B, T, D]`. -/
abbrev SEnc : Shape := ⟨3, ![4, 512, 512]⟩
/-- Predictor frames `[B, U, D]`. -/
abbrev SPred : Shape := ⟨3, ![4, 128, 512]⟩
/-- The projection `[V, D]`. -/
abbrev SProj : Shape := ⟨2, ![512, 512]⟩
/-- The bias `[V]`. -/
abbrev SBias : Shape := ⟨1, ![512]⟩
/-- The logits `[B, T, U, V]`. -/
abbrev SLogit : Shape := ⟨4, ![4, 512, 128, 512]⟩

/-- Every entry of an array is a real number: neither infinity. -/
def AllReal {S : Shape} (a : S.Idx → EReal) : Prop := ∀ i, a i ≠ ⊤ ∧ a i ≠ ⊥

/-- An encoder frame against a row of the projection: `∑ d, s[b, t, d] · w[v, d]`. -/
def encDot (s : SEnc.Idx → EReal) (w : SProj.Idx → EReal) (b : Fin 4) (t : Fin 512) (v : Fin 512) : EReal :=
  ∑ d : Fin 512, s (ix3 b t d) * w (ix2 v d)

/-- A predictor frame against a row of the projection: `∑ d, x[b, u, d] · w[v, d]`. -/
def predDot (x : SPred.Idx → EReal) (w : SProj.Idx → EReal) (b : Fin 4) (u : Fin 128) (v : Fin 512) : EReal :=
  ∑ d : Fin 512, x (ix3 b u d) * w (ix2 v d)

/-- The predictor's projection with the bias added: a function of `(b, u, v)` alone. -/
def predProj (x : SPred.Idx → EReal) (w : SProj.Idx → EReal) (β : SBias.Idx → EReal) (b : Fin 4) (u : Fin 128)
    (v : Fin 512) : EReal :=
  predDot x w b u v + β (ix1 v)

/-- The split arrangement: each side projected alone, then added. -/
def splitLogit (s : SEnc.Idx → EReal) (x : SPred.Idx → EReal) (w : SProj.Idx → EReal) (β : SBias.Idx → EReal) :
    SLogit.Idx → EReal :=
  fun j => encDot s w (j 0) (j 1) (j 3) + predProj x w β (j 0) (j 2) (j 3)

/-- The fused arrangement: the frames added first, their sum projected, the bias added last. -/
def fusedLogit (s : SEnc.Idx → EReal) (x : SPred.Idx → EReal) (w : SProj.Idx → EReal) (β : SBias.Idx → EReal) :
    SLogit.Idx → EReal :=
  fun j => (∑ d : Fin 512, (s (ix3 (j 0) (j 1) d) + x (ix3 (j 0) (j 2) d)) * w (ix2 (j 3) d)) + β (ix1 (j 3))

/-- Distributivity on three extended reals that are real numbers. -/
theorem add_mul_of_real {a b c : EReal} (ha : a ≠ ⊤ ∧ a ≠ ⊥) (hb : b ≠ ⊤ ∧ b ≠ ⊥) (hc : c ≠ ⊤ ∧ c ≠ ⊥) :
    (a + b) * c = a * c + b * c := by
  lift a to ℝ using ha
  lift b to ℝ using hb
  lift c to ℝ using hc
  exact_mod_cast add_mul a b c

/-- On real frames and a real projection the fused arrangement is the split one, whatever the bias. -/
theorem fused_eq_split (s : SEnc.Idx → EReal) (x : SPred.Idx → EReal) (w : SProj.Idx → EReal) (β : SBias.Idx → EReal)
    (hs : AllReal s) (hx : AllReal x) (hw : AllReal w) : fusedLogit s x w β = splitLogit s x w β := by
  funext j
  unfold fusedLogit splitLogit encDot predProj predDot
  rw [Finset.sum_congr rfl (fun d _ => add_mul_of_real (hs (ix3 (j 0) (j 1) d)) (hx (ix3 (j 0) (j 2) d)) (hw (ix2 (j 3) d))),
    Finset.sum_add_distrib, add_assoc]

end Cert.Joint

end
-- ==== Proof.Blocks.lean ====
/-
  The blocks a grid point works on, in terms of the argument arrays.

  The grid is `[4, 8]`: point `t` is batch row `t / 8`, encoder tile `t % 8` (64 encoder steps each). At point `t`
    the encoder block is rows `64·(t % 8) … 64·(t % 8) + 63` of batch row `t / 8` of the encoder frames,
    the predictor block is the whole batch row `t / 8` of the predictor frames,
    the projection block is the whole projection, and the bias block is the bias as one row
  (the bias reaches the kernel through a host reshape `[512] → [1, 512]`). With these, the first payload at a point is
  the predictor's projection with the bias for the point's batch row (`predTile`), and the second payload over that tile
  is the split arrangement read on the point's output block.
-/
import proofs.«416744_j41970420417852_3_alg».proof.Proof.Gen.KernelIdeal.Value
import proofs.«416744_j41970420417852_3_alg».proof.Proof.PayloadValue
import proofs.«416744_j41970420417852_3_alg».proof.Proof.JointLaw
import Idealize.ShloMosaic.Lib.StableHlo.Run

noncomputable section

open scoped BigOperators
open Idealize.ShloMosaic Idealize.ShloMosaic.TcCoe Idealize.SL.Sem Idealize.ShloMosaic.ValueIdx

namespace Cert.KernelIdeal.JointValue

open Cert.KernelIdeal Cert.KernelIdeal.Gen Cert.Joint

variable (m : (ℓ : Loc nD τ sig) → Buf (Elt Ideal) ℓ)

/-! ## Names at literal types -/

/-- The four float arrays as launched, on core `c`. -/
abbrev enc (c : Dev nD) : SEnc.Idx → EReal := m ((c : Thread nD τ).loc main_arg0)
abbrev pred (c : Dev nD) : SPred.Idx → EReal := m ((c : Thread nD τ).loc main_arg1)
abbrev proj (c : Dev nD) : SProj.Idx → EReal := m ((c : Thread nD τ).loc main_arg2)
abbrev bias (c : Dev nD) : SBias.Idx → EReal := m ((c : Thread nD τ).loc main_arg3)

/-- The four input blocks at point `t`. -/
abbrev encBlk (c : Dev nD) (t : Fin cfg0.N) : Vec Ideal S1x64x512 .f32 := iblk m c 0 t
abbrev predBlk (c : Dev nD) (t : Fin cfg0.N) : Vec Ideal S1x128x512 .f32 := iblk m c 1 t
abbrev projBlk (c : Dev nD) (t : Fin cfg0.N) : Vec Ideal S512x512 .f32 := iblk m c 2 t
abbrev biasBlk (c : Dev nD) (t : Fin cfg0.N) : Vec Ideal S1x512 .f32 := iblk m c 3 t

theorem N_lt (t : Fin cfg0.N) : t.val < 32 := lt_of_lt_of_eq t.isLt (show cfg0.N = 32 from N_0)

/-- The batch row of point `t`. -/
def rowOf (t : Fin cfg0.N) : Fin 4 := ⟨t.val / 8, by have := N_lt t; omega⟩
/-- The encoder step that row `r` of point `t`'s tile is. -/
def stepOf (t : Fin cfg0.N) (r : Fin 64) : Fin 512 := ⟨t.val % 8 * 64 + r.val, by have := r.isLt; omega⟩

/-! ## The index maps, decided over the 32 points -/

theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 4) = t.val / 8 ∧ win0_4.index t (1 : Fin 4) = t.val % 8
    ∧ win0_4.index t (2 : Fin 4) = 0 ∧ win0_4.index t (3 : Fin 4) = 0 :=
  (by decide +kernel : ∀ t : Fin grid0.N, _)

/-! ## Each block read off its array -/

theorem encBlk_apply (c : Dev nD) (t : Fin cfg0.N) (e : Fin 1) (r : Fin 64) (d : Fin 512) :
    encBlk m c t (ix3 e r d) = enc m c (ix3 (rowOf t) (stepOf t r) d) := by
  obtain ⟨e0, e1, e2, -⟩ := idx_facts t
  show iblk m c 0 t (ix3 e r d) = _
  unfold iblk
  rw [View.read_apply]
  show V m c main_arg0 _ = _
  rw [V_main_arg0]
  refine congrArg (m ((c : Thread nD τ).loc main_arg0)) (funext fun a => Fin.ext ?_)
  have he : e.val = 0 := by omega
  match a with
  | ⟨0, _⟩ => show win0_0.index t (0 : Fin 3) * 1 + 1 * e.val = t.val / 8; omega
  | ⟨1, _⟩ => show win0_0.index t (1 : Fin 3) * 64 + 1 * r.val = t.val % 8 * 64 + r.val; omega
  | ⟨2, _⟩ => show win0_0.index t (2 : Fin 3) * 512 + 1 * d.val = d.val; omega

theorem predBlk_apply (c : Dev nD) (t : Fin cfg0.N) (e : Fin 1) (u : Fin 128) (d : Fin 512) :
    predBlk m c t (ix3 e u d) = pred m c (ix3 (rowOf t) u d) := by
  obtain ⟨-, -, -, e0, e1, e2, -⟩ := idx_facts t
  show iblk m c 1 t (ix3 e u d) = _
  unfold iblk
  rw [View.read_apply]
  show V m c main_arg1 _ = _
  rw [V_main_arg1]
  refine congrArg (m ((c : Thread nD τ).loc main_arg1)) (funext fun a => Fin.ext ?_)
  have he : e.val = 0 := by omega
  match a with
  | ⟨0, _⟩ => show win0_1.index t (0 : Fin 3) * 1 + 1 * e.val = t.val / 8; omega
  | ⟨1, _⟩ => show win0_1.index t (1 : Fin 3) * 128 + 1 * u.val = u.val; omega
  | ⟨2, _⟩ => show win0_1.index t (2 : Fin 3) * 512 + 1 * d.val = d.val; omega

theorem projBlk_apply (c : Dev nD) (t : Fin cfg0.N) (v : Fin 512) (d : Fin 512) :
    projBlk m c t (ix2 v d) = proj m c (ix2 v d) := by
  obtain ⟨-, -, -, -, -, -, e0, e1, -⟩ := idx_facts t
  show iblk m c 2 t (ix2 v d) = _
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t (0 : Fin 2) * 512 + 1 * v.val = v.val; omega
  | ⟨1, _⟩ => show win0_2.index t (1 : Fin 2) * 512 + 1 * d.val = d.val; omega

/-- The bias row the region finds is the bias with a unit leading axis: the one host operation before the region. -/
theorem biasRow_eq (c : Dev nD) :
    (V m c main_v0 : S1x512.Idx → EReal) = shapeCast S1x512 (bias m c) shapeCasts_S512_S1x512 := by
  dsimp only [Gen.V, Gen.hostOps0]; after_results; rfl

theorem biasBlk_apply (c : Dev nD) (t : Fin cfg0.N) (e : Fin 1) (v : Fin 512) :
    biasBlk m c t (ix2 e v) = bias m c (ix1 v) := by
  obtain ⟨-, -, -, -, -, -, -, -, e0, e1, -⟩ := idx_facts t
  show iblk m c 3 t (ix2 e v) = _
  unfold iblk
  rw [View.read_apply]
  show V m c main_v0 _ = _
  rw [biasRow_eq]
  have he : e.val = 0 := by omega
  have hi : (((cfg0.win 3).blk t).view.emb (ix2 e v) : S1x512.Idx) = ix2 (0 : Fin 1) v := funext fun a => Fin.ext (by
    match a with
    | ⟨0, _⟩ => show win0_3.index t (0 : Fin 2) * 1 + 1 * e.val = 0; omega
    | ⟨1, _⟩ => show win0_3.index t (1 : Fin 2) * 512 + 1 * v.val = v.val; omega)
  rw [hi, shapeCast_a_1a_apply]

/-! ## The payloads at a point -/

/-- The predictor's projection with the bias, for batch row `b`, as a `[128, 512]` tile. -/
def predTile (c : Dev nD) (b : Fin 4) : Vec Ideal S128x512 .f32 :=
  fun j => predProj (pred m c) (proj m c) (bias m c) b (j 0) (j 1)

/-- The first payload at point `t` is that tile for the point's batch row. -/
theorem pay1_at (c : Dev nD) (t : Fin cfg0.N) :
    k0_pay1 (F := Ideal) (predBlk m c t) (projBlk m c t) (biasBlk m c t) = predTile m c (rowOf t) := by
  funext j
  obtain ⟨u, v, rfl⟩ : ∃ (u : Fin 128) (v : Fin 512), j = ix2 u v := ⟨j 0, j 1, eq_ix2 j⟩
  rw [pay1_apply, biasBlk_apply]
  unfold predTile predProj predDot
  refine congrArg (· + bias m c (ix1 v)) (Finset.sum_congr rfl fun d _ => ?_)
  rw [predBlk_apply, projBlk_apply]

/-- The second payload at point `t` over that tile is the split arrangement, read at the entry of the logits that
    entry `(0, r, u, v)` of the point's output block is. -/
theorem pay2_at (c : Dev nD) (t : Fin cfg0.N) (e : Fin 1) (r : Fin 64) (u : Fin 128) (v : Fin 512) :
    k0_pay2 (F := Ideal) (encBlk m c t) (projBlk m c t) (predTile m c (rowOf t)) (ix4 e r u v)
      = splitLogit (enc m c) (pred m c) (proj m c) (bias m c) (ix4 (rowOf t) (stepOf t r) u v) := by
  rw [pay2_apply]
  unfold splitLogit encDot predTile
  refine congrArg (· + predProj (pred m c) (proj m c) (bias m c) (rowOf t) u v) (Finset.sum_congr rfl fun d _ => ?_)
  rw [encBlk_apply, projBlk_apply]

end Cert.KernelIdeal.JointValue

end
-- ==== Proof.KernelRun.lean ====
/-
  The kernel's result array is the split arrangement of its four float arguments.

  The scratch is carried from one grid point to the next. By induction on the point it holds, after point `n`, the
  predictor's projection with the bias for batch row `n / 8`: a first step of a row (`n % 8 = 0`) stores exactly that
  tile, and a later step leaves the scratch as the point before left it, which by induction is the tile of row
  `(n - 1) / 8 = n / 8`. So at every point the output block ends at the second payload over the row's tile — at a first
  step because the body reads back what it has just stored, at a later step because it reads what was carried — and
  that payload is the split arrangement on the point's block. The 32 blocks tile the logits (entry `(b, s, u, v)` lies in
  the block of point `8·b + s / 64`), every point writes its block back, so the array ends at the split arrangement.
-/
import proofs.«416744_j41970420417852_3_alg».proof.Proof.Pieces
import proofs.«416744_j41970420417852_3_alg».proof.Proof.Blocks

noncomputable section

open scoped BigOperators
open Idealize.ShloMosaic Idealize.ShloMosaic.TcCoe Idealize.SL.Sem Idealize.ShloMosaic.ValueIdx
open Idealize.ShloMosaic.Pipeline (Dat)

namespace Cert.KernelIdeal.JointValue

open Cert.KernelIdeal Cert.KernelIdeal.Gen Cert.KernelIdeal.Value Cert.Joint

variable (m : (ℓ : Loc nD τ sig) → Buf (Elt Ideal) ℓ) (ρ : Dev nD → PrngReg)

/-! ## The carried scratch -/

/-- After point `n` the scratch holds the predictor tile of batch row `n / 8`. -/
theorem scratch_eq (c : Dev nD) : ∀ (n : ℕ) (h : n < cfg0.N), (outsAt0 m c n h).2 = predTile m c (rowOf ⟨n, h⟩) := by
  intro n
  induction n using Nat.strong_induction_on with
  | _ n ih =>
    intro h
    have hN : n < 32 := N_lt ⟨n, h⟩
    by_cases h0 : n % 8 = 0
    · rw [outsAt0_A m c ⟨n, h⟩ h0]
      dsimp only
      rw [scratch_first c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) ((hcond0_0 ⟨n, h⟩).mpr h0) (encBlk m c ⟨n, h⟩) (predBlk m c ⟨n, h⟩) (projBlk m c ⟨n, h⟩) (biasBlk m c ⟨n, h⟩)]
      exact pay1_at m c ⟨n, h⟩
    · rw [outsAt0_B m c ⟨n, h⟩ h0]
      dsimp only
      unfold sout0_B_0
      rw [ih (n - 1) (by omega) _]
      exact congrArg (predTile m c) (Fin.ext (by show (n - 1) / 8 = n / 8; omega))

/-! ## What a point leaves in the output block -/

/-- After point `t` the output block holds the second payload over the predictor tile of the point's batch row. -/
theorem out_eq (c : Dev nD) (t : Fin cfg0.N) :
    (outsAt0 m c t.val t.isLt).1
      = k0_pay2 (F := Ideal) (encBlk m c t) (projBlk m c t) (predTile m c (rowOf t)) := by
  have hN : t.val < 32 := N_lt t
  by_cases h0 : t.val % 8 = 0
  · rw [outsAt0_A m c t h0]
    dsimp only
    rw [out_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (encBlk m c t) (predBlk m c t) (projBlk m c t) (biasBlk m c t), pay1_at]
  · rw [outsAt0_B m c t h0]
    dsimp only
    rw [out_later c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (encBlk m c t) (predBlk m c t) (projBlk m c t) (biasBlk m c t)
      ((outsAt0 m c (t.val - 1) (Nat.lt_of_le_of_lt (Nat.sub_le _ _) t.isLt)).2)]
    rw [scratch_eq m c (t.val - 1) _]
    exact congrArg (fun b => k0_pay2 (F := Ideal) (encBlk m c t) (projBlk m c t) (predTile m c b))
      (Fin.ext (by show (t.val - 1) / 8 = t.val / 8; omega))

/-! ## The write-back is a block of the split arrangement -/

/-- Entry `(0, r, u, v)` of point `t`'s output block is entry `(t / 8, 64·(t % 8) + r, u, v)` of the logits. -/
theorem emb_out (t : Fin cfg0.N) (e : Fin 1) (r : Fin 64) (u : Fin 128) (v : Fin 512) :
    (((cfg0.win 4).blk t).view.emb (ix4 e r u v) : S4x512x128x512.Idx) = ix4 (rowOf t) (stepOf t r) u v := by
  obtain ⟨-, -, -, -, -, -, -, -, -, -, e0, e1, e2, e3⟩ := idx_facts t
  have he : e.val = 0 := by omega
  refine funext fun a => Fin.ext ?_
  match a with
  | ⟨0, _⟩ => show win0_4.index t (0 : Fin 4) * 1 + 1 * e.val = t.val / 8; omega
  | ⟨1, _⟩ => show win0_4.index t (1 : Fin 4) * 64 + 1 * r.val = t.val % 8 * 64 + r.val; omega
  | ⟨2, _⟩ => show win0_4.index t (2 : Fin 4) * 128 + 1 * u.val = u.val; omega
  | ⟨3, _⟩ => show win0_4.index t (3 : Fin 4) * 512 + 1 * v.val = v.val; omega

/-- What point `t` writes back is block `t` of the split arrangement of the arguments. -/
theorem flushed_eq (c : Dev nD) (t : Fin cfg0.N) :
    (dats m 0 c).flushed 4 t
      = ((cfg0.win 4).blk t).view.read (Elt Ideal) (splitLogit (enc m c) (pred m c) (proj m c) (bias m c)) := by
  rw [flushed4, out_eq]
  funext j
  obtain ⟨e, r, u, v, rfl⟩ : ∃ (e : Fin 1) (r : Fin 64) (u : Fin 128) (v : Fin 512), j = ix4 e r u v :=
    ⟨j 0, j 1, j 2, j 3, eq_ix4 j⟩
  rw [View.read_apply]
  show k0_pay2 (F := Ideal) (encBlk m c t) (projBlk m c t) (predTile m c (rowOf t)) (ix4 e r u v)
    = splitLogit (enc m c) (pred m c) (proj m c) (bias m c) (((cfg0.win 4).blk t).view.emb (ix4 e r u v))
  rw [emb_out, pay2_at]

/-! ## The blocks tile the logits -/

theorem mem_blk_out (t : Fin cfg0.N) (i : S4x512x128x512.Idx) :
    i ∈ ((cfg0.win 4).blk t).view.set ↔ ∀ a : Fin 4, win0_4.index t a * S1x64x128x512.size a ≤ (i a).val
      ∧ (i a).val < win0_4.index t a * S1x64x128x512.size a + S1x64x128x512.size a := by
  show i ∈ ((View.whole main_v1).slice (win0_4.rect t)).set ↔ _
  rw [View.set_slice_whole, Rect.mem_set_unit]
  exact Iff.rfl

/-- Entry `(b, s, u, v)` of the logits is in the block of point `8·b + s / 64`, which writes back. -/
theorem cover (i : S4x512x128x512.Idx) :
    ∃ t : Fin cfg0.N, (cfg0.win 4).flush t = true ∧ i ∈ ((cfg0.win 4).blk t).view.set := by
  have h0 : (i 0).val < 4 := (i 0).isLt
  have h1 : (i 1).val < 512 := (i 1).isLt
  have h2 : (i 2).val < 128 := (i 2).isLt
  have h3 : (i 3).val < 512 := (i 3).isLt
  have hN : cfg0.N = 32 := N_0
  obtain ⟨t, tv⟩ : ∃ t : Fin cfg0.N, t.val = (i 0).val * 8 + (i 1).val / 64 :=
    ⟨⟨(i 0).val * 8 + (i 1).val / 64, by omega⟩, rfl⟩
  refine ⟨t, flush0_4 t, ?_⟩
  rw [mem_blk_out]
  obtain ⟨-, -, -, -, -, -, -, -, -, -, e0, e1, e2, e3⟩ := idx_facts t
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 64 ≤ (i 1).val ∧ (i 1).val < win0_4.index t (1 : Fin 4) * 64 + 64; omega
  | ⟨2, _⟩ => show win0_4.index t (2 : Fin 4) * 128 ≤ (i 2).val ∧ (i 2).val < win0_4.index t (2 : Fin 4) * 128 + 128; omega
  | ⟨3, _⟩ => show win0_4.index t (3 : Fin 4) * 512 ≤ (i 3).val ∧ (i 3).val < win0_4.index t (3 : Fin 4) * 512 + 512; omega

/-- So the result array ends at the split arrangement. -/
theorem final (c : Dev nD) :
    (dats m 0 c).arrAt 4 cfg0.N = splitLogit (enc m c) (pred m c) (proj m c) (bias m c) :=
  (dats m 0 c).arrAt_eq_of_cover 4 (splitLogit (enc m c) (pred m c) (proj m c) (bias m c))
    (fun t _ => flushed_eq m c t) cover

/-! ## The run, read -/

/-- Every weakly fair execution terminates with the result array at the split arrangement of the arguments as
    launched, and the arguments unchanged. -/
theorem run : θ_run defs (onTc (τ := τ) (main (F := Ideal))) ⟨m, fun _ => 0, ρ⟩ fun r => ∀ c : Dev nD,
      r.2.mem ((c : Thread nD τ).loc main_v1) = splitLogit (enc m c) (pred m c) (proj m c) (bias m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.JointValue

end
-- ==== Proof.RefValue.lean ====
/-
  The reference's result, read one operation at a time, is the fused arrangement.

  The reference spreads the encoder frames over the predictor steps and the predictor frames over the encoder steps
  (two broadcasts each, through a unit axis), adds them, contracts the last axis of the sum against the last axis of
  the projection, spreads the bias over the three leading axes and adds it. Read at `(b, t, u, v)`, each broadcast is
  its operand at the coordinates it keeps, the contraction is the sum over `d`, and what is left is
    (∑ d, (s[b, t, d] + x[b, u, d]) · w[v, d]) + β[v].
-/
import proofs.«416744_j41970420417852_3_alg».proof.Proof.Gen.ReferenceIdeal.Read
import proofs.«416744_j41970420417852_3_alg».proof.Proof.JointLaw

noncomputable section

open scoped BigOperators
open Idealize.ShloMosaic Idealize.ShloMosaic.ValueIdx

namespace Cert.ReferenceIdeal.JointRef

open Cert.ReferenceIdeal Cert.ReferenceIdeal.Read Cert.Joint

/-- The last stage of the reference is the fused arrangement of its four float arguments. -/
theorem ref_is_fused (s : SEnc.Idx → EReal) (x : SPred.Idx → EReal) (w : SProj.Idx → EReal) (β : SBias.Idx → EReal) :
    val_main_v8 (F := Ideal) s x w β = fusedLogit s x w β := by
  funext i
  rw [val_main_v8_apply, val_main_v5_apply, val_main_v7_apply, val_main_v6_apply]
  unfold fusedLogit
  refine congrArg₂ (fun a b : EReal => a + b) (Finset.sum_congr rfl fun k _ => ?_) ?_
  · rw [val_main_v4_apply, val_main_v2_apply, val_main_v0_apply, val_main_v3_apply, val_main_v1_apply]
    have e0 : idx_main_v0 (idx_main_v2 (lidx_main_v5 i k)) = ix3 (i 0) (i 1) k :=
      funext fun a => Fin.ext (by match a with | ⟨0, _⟩ => rfl | ⟨1, _⟩ => rfl | ⟨2, _⟩ => rfl)
    have e1 : idx_main_v1 (idx_main_v3 (lidx_main_v5 i k)) = ix3 (i 0) (i 2) k :=
      funext fun a => Fin.ext (by match a with | ⟨0, _⟩ => rfl | ⟨1, _⟩ => rfl | ⟨2, _⟩ => rfl)
    have e2 : ridx_main_v5 i k = ix2 (i 3) k :=
      funext fun a => Fin.ext (by match a with | ⟨0, _⟩ => rfl | ⟨1, _⟩ => rfl)
    rw [e0, e1, e2]
    rfl
  · exact congrArg β (funext fun a => Fin.ext (by match a with | ⟨0, _⟩ => rfl))

end Cert.ReferenceIdeal.JointRef

end
-- ==== Proof.Finite.lean ====
/-
  The precondition read back: every entry of the encoder frames, the predictor frames and the projection is a real.

  The precondition is the conjunction of four `all(|a| < +∞)`, one per float array, each printed as a reduction by
  `and` over every axis from the constant `true`. The conjunction being `true` makes each reduction `true`, a reduction
  by `and` that is `true` met only `true` entries, and an entry `|a| < +∞` of extended reals says `a` is neither `+∞`
  (then `|a| = +∞`) nor `−∞` (then `−a = +∞`, and `|a| = max a (−a)`).
-/
import proofs.«416744_j41970420417852_3_alg».proof.Proof.Gen.Pre_finite_inputs
import proofs.«416744_j41970420417852_3_alg».proof.Proof.JointLaw
import Idealize.ShloMosaic.Lib.ReduceAll
import Idealize.ShloMosaic.PureOps.Ideal.Laws

noncomputable section

open Idealize.ShloMosaic Idealize.ShloMosaic.ValueIdx

namespace Cert.Pre_finite_inputs.JointFinite

open Cert.Pre_finite_inputs Cert.Joint

/-- The rank-0 shape has one index. -/
instance : Subsingleton S_.Idx := ⟨fun a b => funext fun d => d.elim0⟩

/-- The word the precondition compares against is `+∞`. -/
theorem ofBits_inf : Ideal.ofBits .f32 0x7F800000#32 = (⊤ : EReal) := by simp [Ideal.ofBits, Ideal.ieee]

/-- An extended real whose absolute value is below `+∞` is a real number. -/
theorem real_of_abs_lt_top (x : EReal)
    (h : Ideal.cmp .olt (max x (-x)) (Ideal.ofBits .f32 0x7F800000#32) = 1#1) : x ≠ ⊤ ∧ x ≠ ⊥ := by
  rw [ofBits_inf] at h
  have h' : BitVec.ofBool (decide (max x (-x) < (⊤ : EReal))) = 1#1 := h
  have hlt : max x (-x) < ⊤ := by
    by_contra hn
    rw [decide_eq_false hn] at h'
    exact absurd h' (by decide)
  constructor
  · rintro rfl
    exact absurd (lt_of_le_of_lt (le_max_left _ _) hlt) (lt_irrefl _)
  · rintro rfl
    have := lt_of_le_of_lt (le_max_right (⊥ : EReal) (-⊥)) hlt
    rw [EReal.neg_bot] at this
    exact absurd this (lt_irrefl _)

/-- Under the precondition the three arrays the distributive law touches hold real numbers. (The bias is finite too;
    the law does not need it.) -/
theorem reals_of_pre (a0 : FVec Ideal S4x512x512 .f32) (a1 : FVec Ideal S4x128x512 .f32) (a2 : FVec Ideal S512x512 .f32)
    (a3 : FVec Ideal S512 .f32) (a4 : IVec S4 32) (a5 : IVec S4 32)
    (h : fn (F := Ideal) a0 a1 a2 a3 a4 a5 = fun _ => 1#1) : AllReal a0 ∧ AllReal a1 ∧ AllReal a2 := by
  have h0 := congrFun h ix0
  dsimp only [fn, fn_part1] at h0
  obtain ⟨h012, -⟩ := IntOp.andi_eq_one.1 h0
  obtain ⟨h01, hr2⟩ := IntOp.andi_eq_one.1 h012
  obtain ⟨hr0, hr1⟩ := IntOp.andi_eq_one.1 h01
  refine ⟨fun i => ?_, fun i => ?_, fun i => ?_⟩
  · exact real_of_abs_lt_top (a0 i) (Host.reduce_andi_all _ _ _ _ ix0 hr0 i)
  · exact real_of_abs_lt_top (a1 i) (Host.reduce_andi_all _ _ _ _ ix0 hr1 i)
  · exact real_of_abs_lt_top (a2 i) (Host.reduce_andi_all _ _ _ _ ix0 hr2 i)

end Cert.Pre_finite_inputs.JointFinite

end
-- ==== Proof.lean ====
/-
  An RNN-T joint network: logits[b, t, u, v] = ∑ d, (speech[b, t, d] + text[b, u, d]) · W[v, d] + bias[v] over
  f32[4, 512, 128, 512], with the two length vectors passed through.

  The reference adds the encoder and predictor frames first (an outer sum over the two time axes), contracts the
  feature axis against the projection, and adds the bias: the FUSED arrangement. The kernel never forms the outer sum.
  On a grid of 4 batch rows by 8 encoder tiles it projects each side alone: at the first tile of a batch row it
  computes the predictor's projection with the bias, `text[b] · Wᵀ + bias`, once into a scratch that it carries over the
  row's eight tiles, and at every tile it computes `speech[b, tile] · Wᵀ` and stores the outer sum of the two projections:
  the SPLIT arrangement, (∑ d, speech[b, t, d] · W[v, d]) + ((∑ d, text[b, u, d] · W[v, d]) + bias[v]).

  Over the extended reals the two arrangements agree when the frames and the projection hold real numbers:
  `(s + x) · w = s · w + x · w` for reals, a finite sum of sums splits, and addition reassociates. Distributivity is the
  one step that fails at the infinities, so the precondition (every float input finite) is used exactly there; the
  bias may be any extended real.

  The modules:
    JointLaw      the two arrangements as functions of the four arrays, and the law between them;
    LibUnitAxes   three layout operations that add or fill a unit axis, read at an index;
    Pieces        what one run of the body leaves in the scratch and in the output block, per case;
    PayloadValue  the body's two payloads read at an entry: both matrix products as plain sums;
    Blocks        each input block at a grid point in terms of the argument arrays;
    KernelRun     the carried scratch by induction on the point, the write-back as a block of the split
                  arrangement, the blocks tiling the logits, and the kernel's run;
    RefValue      the reference's last stage is the fused arrangement;
    Finite        the precondition read back: the three arrays hold real numbers.
  The frames of the two kernel programs are the generated ones; the reference's frame is its generated run with the
  result dropped; the idealization rewrote nothing, so `preserves` is `True`.
-/
import proofs.«416744_j41970420417852_3_alg».proof.Defs
import proofs.«416744_j41970420417852_3_alg».proof.Proof.Gen.Kernel
import proofs.«416744_j41970420417852_3_alg».proof.Proof.Gen.Kernel.Skeleton
import proofs.«416744_j41970420417852_3_alg».proof.Proof.Gen.Kernel.Launch
import proofs.«416744_j41970420417852_3_alg».proof.Proof.Gen.Kernel.Points
import proofs.«416744_j41970420417852_3_alg».proof.Proof.Gen.Kernel.Frame
import proofs.«416744_j41970420417852_3_alg».proof.Proof.Gen.KernelIdeal
import proofs.«416744_j41970420417852_3_alg».proof.Proof.Gen.KernelIdeal.Skeleton
import proofs.«416744_j41970420417852_3_alg».proof.Proof.Gen.KernelIdeal.Launch
import proofs.«416744_j41970420417852_3_alg».proof.Proof.Gen.KernelIdeal.Points
import proofs.«416744_j41970420417852_3_alg».proof.Proof.Gen.KernelIdeal.Frame
import proofs.«416744_j41970420417852_3_alg».proof.Proof.Gen.ReferenceIdeal
import proofs.«416744_j41970420417852_3_alg».proof.Proof.Gen.Pre_finite_inputs
import proofs.«416744_j41970420417852_3_alg».proof.Proof.Gen.KernelIdeal.Value
import proofs.«416744_j41970420417852_3_alg».proof.Proof.Gen.ReferenceIdeal.Run
import proofs.«416744_j41970420417852_3_alg».proof.Proof.Gen.ReferenceIdeal.Read
import proofs.«416744_j41970420417852_3_alg».proof.Proof.KernelRun
import proofs.«416744_j41970420417852_3_alg».proof.Proof.RefValue
import proofs.«416744_j41970420417852_3_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both programs end with the logits at the split arrangement of the kernel's arguments and the two length vectors
    as launched: the kernel by its run, the reference because its result is the fused arrangement of arguments that
    agree with the kernel's, and on finite frames and projection the fused arrangement is the split one. -/
theorem algebraic : Cert.algebraic_KernelIdeal_ReferenceIdeal := by
  intro m ρ m' ρ' hpre hagree
  refine ⟨fun c => Cert.Joint.splitLogit (Cert.KernelIdeal.JointValue.enc m c) (Cert.KernelIdeal.JointValue.pred m c)
      (Cert.KernelIdeal.JointValue.proj m c) (Cert.KernelIdeal.JointValue.bias m c),
    fun c => m ((c.tc : Thread Cert.KernelIdeal.nD Cert.KernelIdeal.τ).loc Cert.KernelIdeal.main_arg4),
    fun c => m ((c.tc : Thread Cert.KernelIdeal.nD Cert.KernelIdeal.τ).loc Cert.KernelIdeal.main_arg5), ?_, ?_⟩
  · refine (θ_run Cert.KernelIdeal.defs _ _).mono (fun r h c => ?_) (Cert.KernelIdeal.JointValue.run m ρ)
    obtain ⟨h1, h2, h3, h4, h5, h6, h7⟩ := h c
    exact ⟨h1, h6, h7, h2, h3, h4, h5, h6, h7⟩
  · refine (θ_run Cert.ReferenceIdeal.defs _ _).mono (fun r h c => ?_)
      (Cert.ReferenceIdeal.Value.run (F := Ideal) m' ρ')
    obtain ⟨h1, h2, h3, hrest⟩ := h c
    obtain ⟨a0, a1, a2, a3, a4, a5⟩ := hagree c
    refine ⟨?_, h2.trans a4, h3.trans a5, hrest⟩
    rw [h1, Cert.ReferenceIdeal.Read.val_main_v8_eq, a0, a1, a2, a3, Cert.ReferenceIdeal.JointRef.ref_is_fused]
    obtain ⟨r0, r1, r2⟩ := Cert.Pre_finite_inputs.JointFinite.reals_of_pre _ _ _ _ _ _ (hpre c)
    exact Cert.Joint.fused_eq_split _ _ _ _ r0 r1 r2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
